-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x8 : Shape := ⟨2, ![32768, 8]⟩
abbrev S8x1024 : Shape := ⟨2, ![8, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S32768x8 : S_.BroadcastsInDim S32768x8 (![] : Fin 0 → Fin S32768x8.rank)
  reducesTo_S32768x8_S_d0_1 : S32768x8.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x1 .f32) (main_arg8 : FVec F S1 .f32) (main_v33 : IVec S_ 1) : IVec S_ 1 :=
  let main_v34 : FVec F S1024x1 .f32 := Host.absf main_arg7
  let main_cst_12 : FVec F S_ .f32 := constant S_ .f32 0x7F800000#32
  let main_v35 : FVec F S1024x1 .f32 := broadcastInDim S1024x1 ![] bcast_S_S1024x1 main_cst_12
  let main_v36 : IVec S1024x1 1 := cmpf .olt main_v34 main_v35
  let main_c_13 : IVec S_ 1 := constantI S_ 1 1#1
  let main_v37 : IVec S_ 1 := (fun x v => Host.reduce IntOp.andi x v reducesTo_S1024x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1 .f32) (main_arg8 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32768x8 .f32) (main_arg1 : FVec F S8x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1 .f32) (main_arg8 : FVec F S1 .f32) : IVec S_ 1 :=
  let main_v0 : FVec F S32768x8 .f32 := Host.absf main_arg0
  let main_cst : FVec F S_ .f32 := constant S_ .f32 0x7F800000#32
  let main_v1 : FVec F S32768x8 .f32 := broadcastInDim S32768x8 ![] bcast_S_S32768x8 main_cst
  let main_v2 : IVec S32768x8 1 := cmpf .olt main_v0 main_v1
  let main_c : IVec S_ 1 := constantI S_ 1 1#1
  let main_v3 : IVec S_ 1 := (fun x v => Host.reduce IntOp.andi x v reducesTo_S32768x8_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32768x8 : Shape := ⟨2, ![32768, 8]⟩
abbrev S8x1024 : Shape := ⟨2, ![8, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S32768x1 : Shape := ⟨2, ![32768, 1]⟩
abbrev S512x8 : Shape := ⟨2, ![512, 8]⟩
abbrev S512x1 : Shape := ⟨2, ![512, 1]⟩
abbrev S512x1024 : Shape := ⟨2, ![512, 1024]⟩
abbrev S1x1024 : Shape := ⟨2, ![1, 1024]⟩
abbrev S1x1 : Shape := ⟨2, ![1, 1]⟩

abbrev nBuf : Space → Nat
  | .hbm => 14
  | .vmem => 12
  | .smem => 0
  | _ => 0

abbrev bufTy : (tb : Table) → Fin (tcTables nBuf tb) → BufTy
  | .hbm, ⟨0, _⟩ => ⟨S32768x8, .f32⟩
  | .hbm, ⟨1, _⟩ => ⟨S8x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S8x1024, .bf16⟩
  | .hbm, ⟨10, _⟩ => ⟨S1024x1024, .bf16⟩
  | .hbm, ⟨11, _⟩ => ⟨S1024x1024, .bf16⟩
  | .hbm, ⟨12, _⟩ => ⟨S1024x1, .bf16⟩
  | .hbm, ⟨13, _⟩ => ⟨S32768x1, .f32⟩
  | .local _ .vmem, ⟨0, _⟩ => ⟨S512x8, .f32⟩
  | .local _ .vmem, ⟨1, _⟩ => ⟨S512x8, .f32⟩
  | .local _ .vmem, ⟨2, _⟩ => ⟨S8x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1, .bf16⟩
  | .local _ .vmem, ⟨9, _⟩ => ⟨S1, .f32⟩
  | .local _ .vmem, ⟨10, _⟩ => ⟨S512x1, .f32⟩
  | .local _ .vmem, ⟨11, _⟩ => ⟨S512x1, .f32⟩
  | _, _ => ⟨S32768x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  slices_S512x8_o0_0_S512x1 : S512x8.Slices ![0, 0] S512x1
  slices_S512x8_o0_1_S512x1 : S512x8.Slices ![0, 1] S512x1
  slices_S512x8_o0_2_S512x1 : S512x8.Slices ![0, 2] S512x1
  slices_S512x8_o0_3_S512x1 : S512x8.Slices ![0, 3] S512x1
  slices_S512x8_o0_7_S512x1 : S512x8.Slices ![0, 7] S512x1
  inb_S512x1_S512x1_0_0 : ∀ a, (![0, 0] : Fin 2 → Nat) a + S512x1.size a ≤ S512x1.size a
  h_S512x1 : 0 < S512x1.numel
  dot_S512x8_S8x1024_S512x1024_1_0_0_1_n_n_wf : DotDims.WF S512x8 S8x1024 S512x1024 [1] [0] [0] [1] [] []
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S32768x8.size a
  hwx0_0 : ∀ i : grid0.Coords, EltTy.bits .f32 = 32 ∨ (Rect.block (s := S32768x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .bf16 = 32 ∨ (Rect.block (s := S8x1024) S8x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S1024x1.size a
  hwx0_7 : ∀ i : grid0.Coords, EltTy.bits .bf16 = 32 ∨ (Rect.block (s := S1024x1) S1024x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S32768x1.size a
  hwx0_9 : ∀ i : grid0.Coords, EltTy.bits .f32 = 32 ∨ (Rect.block (s := S32768x1) S512x1.size (cc0_transform_9 i) (hinb0_9 i)).WholeWords (EltTy.packing .f32)

variable [Facts₀]

def dot_S512x8_S8x1024_S512x1024_1_0_0_1_n_n : DotDims S512x8 S8x1024 S512x1024 where
  lhsContracting := [1]
  rhsContracting := [0]
  lhsNonContracting := [0]
  rhsNonContracting := [1]
  lhsBatch := []
  rhsBatch := []
  wf := dot_S512x8_S8x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg0) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1024x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x8 : Shape := ⟨2, ![32768, 8]⟩
abbrev S8x1024 : Shape := ⟨2, ![8, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S32768x1024 : Shape := ⟨2, ![32768, 1024]⟩
abbrev S1x1024 : Shape := ⟨2, ![1, 1024]⟩
abbrev S_ : Shape := ⟨0, ![]⟩
abbrev S32768x1 : Shape := ⟨2, ![32768, 1]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S32768x8, .f32⟩
  | 1 => ⟨S8x1024, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1, .f32⟩
  | 8 => ⟨S1, .f32⟩
  | 9 => ⟨S32768x1024, .f32⟩
  | 10 => ⟨S1x1024, .f32⟩
  | 11 => ⟨S32768x1024, .f32⟩
  | 12 => ⟨S32768x1024, .f32⟩
  | 13 => ⟨S_, .f32⟩
  | 14 => ⟨S32768x1024, .f32⟩
  | 15 => ⟨S32768x1024, .f32⟩
  | 16 => ⟨S32768x1024, .f32⟩
  | 17 => ⟨S1x1024, .f32⟩
  | 18 => ⟨S32768x1024, .f32⟩
  | 19 => ⟨S32768x1024, .f32⟩
  | 20 => ⟨S_, .f32⟩
  | 21 => ⟨S32768x1024, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S_, .f32⟩
  | 28 => ⟨S32768x1024, .f32⟩
  | 29 => ⟨S32768x1024, .f32⟩
  | 30 => ⟨S32768x1, .f32⟩
  | 31 => ⟨S1x1, .f32⟩
  | 32 => ⟨S32768x1, .f32⟩
  | 33 => ⟨S32768x1, .f32⟩
  | 34 => ⟨S32768x1, .f32⟩
  | 35 => ⟨S32768x1, .f32⟩
  | 36 => ⟨S32768x1, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .i1⟩
  | 45 => ⟨S_, .f32⟩
  | 46 => ⟨S32768x1, .f32⟩
  | 47 => ⟨S32768x1, .i1⟩
  | 48 => ⟨S32768x1, .i1⟩
  | 49 => ⟨S_, .f32⟩
  | 50 => ⟨S32768x1, .f32⟩
  | 51 => ⟨S32768x1, .i1⟩
  | 52 => ⟨S_, .f32⟩
  | 53 => ⟨S_, .f32⟩
  | 54 => ⟨S32768x1, .f32⟩
  | 55 => ⟨S32768x1, .f32⟩
  | 56 => ⟨S32768x1, .f32⟩
  | 57 => ⟨S32768x1, .f32⟩
  | 58 => ⟨S_, .f32⟩
  | 59 => ⟨S32768x1, .f32⟩
  | 60 => ⟨S32768x1, .f32⟩
  | 61 => ⟨S32768x1, .f32⟩
  | 62 => ⟨S_, .f32⟩
  | 63 => ⟨S32768x1, .f32⟩
  | 64 => ⟨S32768x1, .f32⟩
  | 65 => ⟨S32768x1, .f32⟩
  | 66 => ⟨S_, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S_, .f32⟩
  | 73 => ⟨S32768x1, .f32⟩
  | 74 => ⟨S32768x1, .f32⟩
  | 75 => ⟨S_, .f32⟩
  | 76 => ⟨S32768x1, .f32⟩
  | 77 => ⟨S32768x1, .f32⟩
  | 78 => ⟨S_, .f32⟩
  | 79 => ⟨S32768x1, .f32⟩
  | 80 => ⟨S32768x1, .f32⟩
  | 81 => ⟨S32768x1, .f32⟩
  | 82 => ⟨S32768x1, .f32⟩
  | 83 => ⟨S32768x1, .f32⟩
  | 84 => ⟨S_, .f32⟩
  | 85 => ⟨S32768x1, .f32⟩
  | 86 => ⟨S32768x1, .f32⟩
  | 87 => ⟨S32768x1, .f32⟩
  | 88 => ⟨S32768x1, .f32⟩
  | 89 => ⟨S_, .f32⟩
  | 90 => ⟨S32768x1, .f32⟩
  | 91 => ⟨S32768x1, .i1⟩
  | 92 => ⟨S_, .f32⟩
  | 93 => ⟨S_, .f32⟩
  | 94 => ⟨S32768x1, .f32⟩
  | 95 => ⟨S32768x1, .f32⟩
  | 96 => ⟨S_, .f32⟩
  | 97 => ⟨S32768x1, .f32⟩
  | 98 => ⟨S32768x1, .i1⟩
  | 99 => ⟨S_, .f32⟩
  | 100 => ⟨S_, .f32⟩
  | 101 => ⟨S32768x1, .f32⟩
  | 102 => ⟨S32768x1, .f32⟩
  | 103 => ⟨S32768x1, .f32⟩
  | 104 => ⟨S32768x1, .f32⟩
  | 105 => ⟨S32768x1, .f32⟩
  | 106 => ⟨S_, .f32⟩
  | 107 => ⟨S_, .f32⟩
  | 108 => ⟨S_, .f32⟩
  | 109 => ⟨S32768x1, .f32⟩
  | 110 => ⟨S32768x1, .f32⟩
  | 111 => ⟨S_, .f32⟩
  | 112 => ⟨S32768x1, .f32⟩
  | 113 => ⟨S32768x1, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x8, .f32⟩

abbrev hbmTy0_1 (i : Nat) : BufTy := match i % 128 with
  | 0 => ⟨S_, .f32⟩
  | 1 => ⟨S_, .f32⟩
  | 2 => ⟨S_, .f32⟩
  | 3 => ⟨S32768x1, .f32⟩
  | 4 => ⟨S32768x1, .f32⟩
  | 5 => ⟨S_, .f32⟩
  | 6 => ⟨S32768x1, .f32⟩
  | 7 => ⟨S32768x1, .f32⟩
  | 8 => ⟨S32768x1, .f32⟩
  | 9 => ⟨S_, .f32⟩
  | 10 => ⟨S_, .f32⟩
  | 11 => ⟨S32768x1, .f32⟩
  | 12 => ⟨S32768x1, .f32⟩
  | 13 => ⟨S32768x1, .f32⟩
  | 14 => ⟨S_, .f32⟩
  | 15 => ⟨S32768x1, .f32⟩
  | 16 => ⟨S32768x1, .i1⟩
  | 17 => ⟨S32768x1, .i1⟩
  | 18 => ⟨S32768x1, .f32⟩
  | _ => ⟨S32768x8, .f32⟩

abbrev hbmTy (i : Nat) : BufTy := match i / 128 with
  | 0 => hbmTy0_0 i
  | 1 => hbmTy0_1 i
  | _ => ⟨S32768x8, .f32⟩

abbrev bufTy : (tb : Table) → Fin (tcTables nBuf tb) → BufTy
  | .hbm, ⟨i, _⟩ => hbmTy i
  | _, _ => ⟨S32768x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_call3_v0 : Ref sig .tc := ⟨.hbm, 53, rfl⟩
abbrev main_call3_v1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_call4_v0 : Ref sig .tc := ⟨.hbm, 93, rfl⟩
abbrev main_call4_v1 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_call5_v0 : Ref sig .tc := ⟨.hbm, 100, rfl⟩
abbrev main_call5_v1 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_16 : Ref sig .tc := ⟨.hbm, 106, rfl⟩
abbrev main_cst_17 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_18 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_19 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_20 : Ref sig .tc := ⟨.hbm, 125, rfl⟩
abbrev main_v78 : Ref sig .tc := ⟨.hbm, 126, rfl⟩
abbrev main_v79 : Ref sig .tc := ⟨.hbm, 127, rfl⟩
abbrev main_cst_21 : Ref sig .tc := ⟨.hbm, 128, rfl⟩
abbrev main_cst_22 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_v80 : Ref sig .tc := ⟨.hbm, 135, rfl⟩
abbrev main_v81 : Ref sig .tc := ⟨.hbm, 136, rfl⟩
abbrev main_cst_23 : Ref sig .tc := ⟨.hbm, 137, rfl⟩
abbrev main_call8_v0 : Ref sig .tc := ⟨.hbm, 138, rfl⟩
abbrev main_call8_v1 : Ref sig .tc := ⟨.hbm, 139, rfl⟩
abbrev main_call8_v2 : Ref sig .tc := ⟨.hbm, 140, rfl⟩
abbrev main_v82 : Ref sig .tc := ⟨.hbm, 141, rfl⟩
abbrev main_cst_24 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  slices_S32768x8_S32768x1_0_0 : S32768x8.Slices ![0, 0] S32768x1
  slices_S32768x8_S32768x1_0_1 : S32768x8.Slices ![0, 1] S32768x1
  slices_S32768x8_S32768x1_0_2 : S32768x8.Slices ![0, 2] S32768x1
  slices_S32768x8_S32768x1_0_3 : S32768x8.Slices ![0, 3] S32768x1
  slices_S32768x8_S32768x1_0_7 : S32768x8.Slices ![0, 7] S32768x1
  bcast_S_S32768x1 : S_.BroadcastsInDim S32768x1 (![] : Fin 0 → Fin S32768x1.rank)
  dot_S32768x8_S8x1024_S32768x1024_1_0_0_1_n_n_wf : DotDims.WF S32768x8 S8x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x1_S32768x1_1_0_0_1_n_n_wf : DotDims.WF S32768x1024 S1024x1 S32768x1 [1] [0] [0] [1] [] []

variable [Facts₀]

def dot_S32768x8_S8x1024_S32768x1024_1_0_0_1_n_n : DotDims S32768x8 S8x1024 S32768x1024 where
  lhsContracting := [1]
  rhsContracting := [0]
  lhsNonContracting := [0]
  rhsNonContracting := [1]
  lhsBatch := []
  rhsBatch := []
  wf := dot_S32768x8_S8x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.Spec.lean ====
/-
  What both programs compute, for ONE sample (one row of the batch), as a function on the extended reals.

  A sample is a row `x : Fin 8 → EReal` of mix quantities (cement, slag, fly ash, water, …, age). A three-layer
  perceptron with ReLU gives a raw strength `mlp x`; a closed-form "physics" bound, computed from the same row, then
  clamps it: where cement, water and binder are all positive the result is `min upper (max 5 raw)`, elsewhere `raw`.
  Every float literal is kept as the extended real its bit pattern denotes (`lit`): the same words occur on both
  sides, so none is ever evaluated (only the zero word, where `0 - k` meets `-k`).

  The whole-array function `result` applies the per-sample function to each row of the batch; it is the common
  value the kernel's blocks and the reference's run are both shown to hold.
-/
import Idealize.ShloMosaic.PureOps.Ideal
import Idealize.ShloMosaic.PureOps.Ideal.Laws
import Idealize.ShloMosaic.Lib.ValueIdx

noncomputable section

namespace Cert.MlpClamp

open Idealize.ShloMosaic Idealize.ShloMosaic.ValueIdx

/-- An f32 literal, as the extended real its bit pattern denotes. -/
abbrev lit (w : BitVec 32) : EReal := Ideal.ofBits .f32 w

/-- The strict comparison `y < x` as a mask bit. -/
abbrev gt (x y : EReal) : BitVec 1 := Ideal.cmp .ogt x y

/-! ## The perceptron -/

/-- One dense layer with ReLU on a sample: `max (∑ k, h k · W k j + b j) 0`. -/
def dense {K N : Nat} (h : Fin K → EReal) (W : Fin K → Fin N → EReal) (b : Fin N → EReal) : Fin N → EReal :=
  fun j => max (∑ k : Fin K, h k * W k j + b j) (lit 0x00000000#32)

/-- The last, linear layer: `∑ k, h k · W k 0 + b 0`. -/
def head {K : Nat} (h : Fin K → EReal) (W : Fin K → Fin 1 → EReal) (b : Fin 1 → EReal) : EReal :=
  ∑ k : Fin K, h k * W k 0 + b 0

/-- The raw network output of a sample. -/
def mlp (x : Fin 8 → EReal) (W1 : Fin 8 → Fin 1024 → EReal) (b1 : Fin 1024 → EReal)
    (W2 : Fin 1024 → Fin 1024 → EReal) (b2 : Fin 1024 → EReal) (W3 : Fin 1024 → Fin 1024 → EReal) (b3 : Fin 1024 → EReal)
    (W4 : Fin 1024 → Fin 1 → EReal) (b4 : Fin 1 → EReal) : EReal :=
  head (dense (dense (dense x W1 b1) W2 b2) W3 b3) W4 b4

/-! ## The clamp, in the stages both programs compute it in -/

/-- Water–cement ratio, the divisor replaced by `1` where cement is not positive. -/
def waterCement (c w : EReal) : EReal :=
  Ideal.div w (Scalar.select (gt c (lit 0x00000000#32)) c (lit 0x3F800000#32))

/-- Degree of hydration `α = α_max · (1 − exp (−k · age))` from cement `c`, supplementary material `scm`, the
    water–cement ratio `wc` and the raw age `a` (floored at one day). -/
def hydration (c scm wc a : EReal) : EReal :=
  min (lit 0x3F733333#32)
      (lit 0x3F733333#32 - Ideal.div (lit 0x3E19999A#32 * scm) (max (c + scm) (lit 0x3DCCCCCD#32)))
    * (lit 0x3F800000#32
        - Ideal.exp (-(Ideal.div (lit 0x3C23D70A#32) (max (lit 0x3F800000#32 + wc) (lit 0x3DCCCCCD#32)))
            * max a (lit 0x3F800000#32)))

/-- The cube of the clipped gel–space ratio. -/
def cube (g : EReal) : EReal := g * g * g

/-- The clipped gel–space ratio `clip (α · (c / binder) / wc, 0.01, 10)`, each divisor replaced by `1` where not positive. -/
def gelRatio (c wc alpha binder : EReal) : EReal :=
  min (lit 0x41200000#32) (max (lit 0x3C23D70A#32)
    (Ideal.div (alpha * Ideal.div c (Scalar.select (gt binder (lit 0x00000000#32)) binder (lit 0x3F800000#32)))
      (Scalar.select (gt wc (lit 0x00000000#32)) wc (lit 0x3F800000#32))))

/-- The upper bound `min (clip (50 · g³, 5, 120)) (120 · c / max (c + w + scm) 1e-6)`. -/
def upperBound (c w scm g3 : EReal) : EReal :=
  min (min (lit 0x42F00000#32) (max (lit 0x40A00000#32) (lit 0x42480000#32 * g3)))
    (lit 0x42F00000#32 * Ideal.div c (max (c + w + scm) (lit 0x358637BD#32)))

/-- The clamp of the raw output of one sample. -/
def clamp (c slag ash w a raw : EReal) : EReal :=
  Scalar.select
    (IntOp.andi (IntOp.andi (gt c (lit 0x00000000#32)) (gt w (lit 0x00000000#32))) (gt (c + (slag + ash)) (lit 0x00000000#32)))
    (min (upperBound c w (slag + ash)
            (cube (gelRatio c (waterCement c w) (hydration c (slag + ash) (waterCement c w) a) (c + (slag + ash)))))
      (max (lit 0x40A00000#32) raw))
    raw

/-- What one sample's output is. -/
def sample (x : Fin 8 → EReal) (W1 : Fin 8 → Fin 1024 → EReal) (b1 : Fin 1024 → EReal)
    (W2 : Fin 1024 → Fin 1024 → EReal) (b2 : Fin 1024 → EReal) (W3 : Fin 1024 → Fin 1024 → EReal) (b3 : Fin 1024 → EReal)
    (W4 : Fin 1024 → Fin 1 → EReal) (b4 : Fin 1 → EReal) : EReal :=
  clamp (x 0) (x 1) (x 2) (x 3) (x 7) (mlp x W1 b1 W2 b2 W3 b3 W4 b4)

/-! ## The whole batch -/

/-- A matrix as a function of its two coordinates. -/
abbrev mat {n0 n1 : Nat} (A : (⟨2, ![n0, n1]⟩ : Shape).Idx → EReal) : Fin n0 → Fin n1 → EReal := fun a b => A (ix2 a b)

/-- A vector as a function of its coordinate. -/
abbrev vec {n : Nat} (v : (⟨1, ![n]⟩ : Shape).Idx → EReal) : Fin n → EReal := fun a => v (ix1 a)

/-- The result array: each row of the batch through `sample`. -/
def result (x : (⟨2, ![32768, 8]⟩ : Shape).Idx → EReal) (W1 : (⟨2, ![8, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (W4 : (⟨2, ![1024, 1]⟩ : Shape).Idx → EReal) (b4 : (⟨1, ![1]⟩ : Shape).Idx → EReal) : (⟨2, ![32768, 1]⟩ : Shape).Idx → EReal :=
  fun i => sample (mat x (i 0)) (mat W1) (vec b1) (mat W2) (vec b2) (mat W3) (vec b3) (mat W4) (vec b4)

end Cert.MlpClamp

end
-- ==== Proof.KernelMlp.lean ====
/-
  The kernel body's perceptron, read at one row of a block: the four matrix products (each onto a zero accumulator,
  so a plain sum over the contracted axis), the bias rows broadcast down the block, and ReLU, give at row `p` the
  per-sample network `MlpClamp.mlp` of row `p` of the input block. A change of float format is the identity on the
  extended reals, so the bf16 casts between the layers vanish.
-/
import proofs.«153853_j46084999086149_1_alg».proof.Proof.Gen.KernelIdeal.Skeleton
import proofs.«153853_j46084999086149_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ### The product 512×8 by 8×1024 -/

theorem lhsA_0 (i : S512x1024.Idx) (q : dot_S512x8_S8x1024_S512x1024_1_0_0_1_n_n.contr.Idx) :
    (dot_S512x8_S8x1024_S512x1024_1_0_0_1_n_n.lhsIdx i q 0).val = (i 0).val := by
  unfold DotDims.lhsIdx
  rw [dif_neg (show ¬(0 : Fin S512x8.rank) ∈ dot_S512x8_S8x1024_S512x1024_1_0_0_1_n_n.lhsBatch by decide), dif_pos (show (0 : Fin S512x8.rank) ∈ dot_S512x8_S8x1024_S512x1024_1_0_0_1_n_n.lhsNonContracting by decide)]
  rfl
theorem lhsA_1 (i : S512x1024.Idx) (q : dot_S512x8_S8x1024_S512x1024_1_0_0_1_n_n.contr.Idx) :
    (dot_S512x8_S8x1024_S512x1024_1_0_0_1_n_n.lhsIdx i q 1).val = (q ⟨0, by decide⟩).val :=
  dot_S512x8_S8x1024_S512x1024_1_0_0_1_n_n.lhsIdx_val_of_single rfl i q
theorem rhsA_0 (i : S512x1024.Idx) (q : dot_S512x8_S8x1024_S512x1024_1_0_0_1_n_n.contr.Idx) :
    (dot_S512x8_S8x1024_S512x1024_1_0_0_1_n_n.rhsIdx i q 0).val = (q ⟨0, by decide⟩).val :=
  dot_S512x8_S8x1024_S512x1024_1_0_0_1_n_n.rhsIdx_val_of_single rfl i q
theorem rhsA_1 (i : S512x1024.Idx) (q : dot_S512x8_S8x1024_S512x1024_1_0_0_1_n_n.contr.Idx) :
    (dot_S512x8_S8x1024_S512x1024_1_0_0_1_n_n.rhsIdx i q 1).val = (i 1).val := by
  unfold DotDims.rhsIdx
  rw [dif_neg (show ¬(1 : Fin S8x1024.rank) ∈ dot_S512x8_S8x1024_S512x1024_1_0_0_1_n_n.rhsBatch by decide), dif_pos (show (1 : Fin S8x1024.rank) ∈ dot_S512x8_S8x1024_S512x1024_1_0_0_1_n_n.rhsNonContracting by decide)]
  rfl

/-- Onto a zero accumulator the product at `(p, j)` is the sum over the contracted axis. -/
theorem matmulA_apply {φ₁ φ₂ : FTy} (l : FVec Ideal S512x8 φ₁) (r : FVec Ideal S8x1024 φ₂) (p : Fin 512) (j : Fin 1024) :
    matmul (F := Ideal) dot_S512x8_S8x1024_S512x1024_1_0_0_1_n_n none l r (constant S512x1024 .f32 0x00000000#32) (ix2 p j)
      = ∑ k : Fin 8, l (ix2 p k) * r (ix2 k j) := by
  show FloatOps.matmul dot_S512x8_S8x1024_S512x1024_1_0_0_1_n_n none l r (constant S512x1024 .f32 0x00000000#32) (ix2 p j) = _
  rw [Ideal.matmul_constant_zero_apply, ← Equiv.sum_comp (ValueIdx.contrEquiv1 dot_S512x8_S8x1024_S512x1024_1_0_0_1_n_n 8 rfl rfl).symm]
  refine Finset.sum_congr rfl fun k _ => ?_
  have hk := ValueIdx.contrEquiv1_symm_val dot_S512x8_S8x1024_S512x1024_1_0_0_1_n_n 8 rfl rfl k
  have el : dot_S512x8_S8x1024_S512x1024_1_0_0_1_n_n.lhsIdx (ix2 p j) ((ValueIdx.contrEquiv1 dot_S512x8_S8x1024_S512x1024_1_0_0_1_n_n 8 rfl rfl).symm k) = ix2 p k := funext fun a => Fin.ext (by
    match a with
    | ⟨0, _⟩ => exact lhsA_0 _ _
    | ⟨1, _⟩ => exact (lhsA_1 _ _).trans hk)
  have er : dot_S512x8_S8x1024_S512x1024_1_0_0_1_n_n.rhsIdx (ix2 p j) ((ValueIdx.contrEquiv1 dot_S512x8_S8x1024_S512x1024_1_0_0_1_n_n 8 rfl rfl).symm k) = ix2 k j := funext fun a => Fin.ext (by
    match a with
    | ⟨0, _⟩ => exact (rhsA_0 _ _).trans hk
    | ⟨1, _⟩ => exact rhsA_1 _ _)
  rw [el, er]

/-! ### The product 512×1024 by 1024×1024 -/

theorem lhsB_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsB_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsB_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsB_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Onto a zero accumulator the product at `(p, j)` is the sum over the contracted axis. -/
theorem matmulB_apply {φ₁ φ₂ : FTy} (l : FVec Ideal S512x1024 φ₁) (r : FVec Ideal S1024x1024 φ₂) (p : Fin 512) (j : Fin 1024) :
    matmul (F := Ideal) dot_S512x1024_S1024x1024_S512x1024_1_0_0_1_n_n none l r (constant S512x1024 .f32 0x00000000#32) (ix2 p j)
      = ∑ k : Fin 1024, l (ix2 p k) * r (ix2 k j) := by
  show FloatOps.matmul dot_S512x1024_S1024x1024_S512x1024_1_0_0_1_n_n none l r (constant S512x1024 .f32 0x00000000#32) (ix2 p j) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p j) ((ValueIdx.contrEquiv1 dot_S512x1024_S1024x1024_S512x1024_1_0_0_1_n_n 1024 rfl rfl).symm k) = ix2 p k := funext fun a => Fin.ext (by
    match a with
    | ⟨0, _⟩ => exact lhsB_0 _ _
    | ⟨1, _⟩ => exact (lhsB_1 _ _).trans hk)
  have er : dot_S512x1024_S1024x1024_S512x1024_1_0_0_1_n_n.rhsIdx (ix2 p j) ((ValueIdx.contrEquiv1 dot_S512x1024_S1024x1024_S512x1024_1_0_0_1_n_n 1024 rfl rfl).symm k) = ix2 k j := funext fun a => Fin.ext (by
    match a with
    | ⟨0, _⟩ => exact (rhsB_0 _ _).trans hk
    | ⟨1, _⟩ => exact rhsB_1 _ _)
  rw [el, er]

/-! ### The product 512×1024 by 1024×1 -/

theorem lhsC_0 (i : S512x1.Idx) (q : dot_S512x1024_S1024x1_S512x1_1_0_0_1_n_n.contr.Idx) :
    (dot_S512x1024_S1024x1_S512x1_1_0_0_1_n_n.lhsIdx i q 0).val = (i 0).val := by
  unfold DotDims.lhsIdx
  rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
  rfl
theorem lhsC_1 (i : S512x1.Idx) (q : dot_S512x1024_S1024x1_S512x1_1_0_0_1_n_n.contr.Idx) :
    (dot_S512x1024_S1024x1_S512x1_1_0_0_1_n_n.lhsIdx i q 1).val = (q ⟨0, by decide⟩).val :=
  dot_S512x1024_S1024x1_S512x1_1_0_0_1_n_n.lhsIdx_val_of_single rfl i q
theorem rhsC_0 (i : S512x1.Idx) (q : dot_S512x1024_S1024x1_S512x1_1_0_0_1_n_n.contr.Idx) :
    (dot_S512x1024_S1024x1_S512x1_1_0_0_1_n_n.rhsIdx i q 0).val = (q ⟨0, by decide⟩).val :=
  dot_S512x1024_S1024x1_S512x1_1_0_0_1_n_n.rhsIdx_val_of_single rfl i q
theorem rhsC_1 (i : S512x1.Idx) (q : dot_S512x1024_S1024x1_S512x1_1_0_0_1_n_n.contr.Idx) :
    (dot_S512x1024_S1024x1_S512x1_1_0_0_1_n_n.rhsIdx i q 1).val = (i 1).val := by
  unfold DotDims.rhsIdx
  rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
  rfl

/-- Onto a zero accumulator the product at `(p, j)` is the sum over the contracted axis. -/
theorem matmulC_apply {φ₁ φ₂ : FTy} (l : FVec Ideal S512x1024 φ₁) (r : FVec Ideal S1024x1 φ₂) (p : Fin 512) (j : Fin 1) :
    matmul (F := Ideal) dot_S512x1024_S1024x1_S512x1_1_0_0_1_n_n none l r (constant S512x1 .f32 0x00000000#32) (ix2 p j)
      = ∑ k : Fin 1024, l (ix2 p k) * r (ix2 k j) := by
  show FloatOps.matmul dot_S512x1024_S1024x1_S512x1_1_0_0_1_n_n none l r (constant S512x1 .f32 0x00000000#32) (ix2 p j) = _
  rw [Ideal.matmul_constant_zero_apply, ← Equiv.sum_comp (ValueIdx.contrEquiv1 dot_S512x1024_S1024x1_S512x1_1_0_0_1_n_n 1024 rfl rfl).symm]
  refine Finset.sum_congr rfl fun k _ => ?_
  have hk := ValueIdx.contrEquiv1_symm_val dot_S512x1024_S1024x1_S512x1_1_0_0_1_n_n 1024 rfl rfl k
  have el : dot_S512x1024_S1024x1_S512x1_1_0_0_1_n_n.lhsIdx (ix2 p j) ((ValueIdx.contrEquiv1 dot_S512x1024_S1024x1_S512x1_1_0_0_1_n_n 1024 rfl rfl).symm k) = ix2 p k := funext fun a => Fin.ext (by
    match a with
    | ⟨0, _⟩ => exact lhsC_0 _ _
    | ⟨1, _⟩ => exact (lhsC_1 _ _).trans hk)
  have er : dot_S512x1024_S1024x1_S512x1_1_0_0_1_n_n.rhsIdx (ix2 p j) ((ValueIdx.contrEquiv1 dot_S512x1024_S1024x1_S512x1_1_0_0_1_n_n 1024 rfl rfl).symm k) = ix2 k j := funext fun a => Fin.ext (by
    match a with
    | ⟨0, _⟩ => exact (rhsC_0 _ _).trans hk
    | ⟨1, _⟩ => exact rhsC_1 _ _)
  rw [el, er]

/-! ### The bias rows -/

/-- A row vector broadcast down the 512 rows of a block reads, at `(p, j)`, its entry `j`. -/
theorem bias_apply {α : Type} (b : S1024.Idx → α) (h1 : S1024.ShapeCasts S1x1024) (h2 : S1x1024.Broadcasts S512x1024)
    (p : Fin 512) (j : Fin 1024) :
    broadcastTo S512x1024 (shapeCast S1x1024 b h1) h2 (ix2 p j) = b (ix1 j) := by
  refine (broadcastTo_apply _ h2 (ix2 p j) (ix2 (0 : Fin 1) j) (fun a => ?_)).trans ?_
  · match a with
    | ⟨0, _⟩ => show 0 = if (1 : Nat) = 1 then 0 else p.val; rw [if_pos rfl]
    | ⟨1, _⟩ => show j.val = if (1024 : Nat) = 1 then 0 else j.val; rw [if_neg (by decide)]
  · refine shapeCast_apply b h1 (ix2 (0 : Fin 1) j) (ix1 j) ?_
    rw [Shape.rowMajor_val_one, Shape.rowMajor_val_two]
    show j.val = 0 * 1024 + j.val
    omega

/-- The last layer's one bias entry, broadcast down the 512 rows. -/
theorem bias1_apply {α : Type} (b : S1.Idx → α) (h1 : S1.ShapeCasts S1x1) (h2 : S1x1.Broadcasts S512x1)
    (p : Fin 512) (j : Fin 1) :
    broadcastTo S512x1 (shapeCast S1x1 b h1) h2 (ix2 p j) = b (ix1 j) := by
  refine (broadcastTo_apply _ h2 (ix2 p j) (ix2 (0 : Fin 1) j) (fun a => ?_)).trans ?_
  · match a with
    | ⟨0, _⟩ => show 0 = if (1 : Nat) = 1 then 0 else p.val; rw [if_pos rfl]
    | ⟨1, _⟩ => show j.val = if (1 : Nat) = 1 then 0 else j.val; rw [if_pos rfl]; omega
  · refine shapeCast_apply b h1 (ix2 (0 : Fin 1) j) (ix1 j) ?_
    rw [Shape.rowMajor_val_one, Shape.rowMajor_val_two]
    show j.val = 0 * 1 + j.val
    omega

/-! ### The layers -/

/-- The first hidden layer's block (product, bias row, ReLU, narrowed) at `(p, j)` is the dense layer of row `p` of its input block at `j`. -/
theorem layerA_apply (h : FVec Ideal S512x8 .bf16) (W : FVec Ideal S8x1024 .bf16) (b : FVec Ideal S1024 .f32)
    (hw : S8x1024.ShapeCasts S8x1024) (h1 : S1024.ShapeCasts S1x1024) (h2 : S1x1024.Broadcasts S512x1024)
    (hb : FTy.bits .bf16 < FTy.bits .f32) (p : Fin 512) (j : Fin 1024) :
    truncf (F := Ideal) .bf16
        (maximumf
          (addf (matmul dot_S512x8_S8x1024_S512x1024_1_0_0_1_n_n none h (shapeCast S8x1024 W hw) (constant S512x1024 .f32 0x00000000#32))
            (broadcastTo S512x1024 (shapeCast S1x1024 b h1) h2))
          (broadcast S512x1024 (Scalar.ofBits .f32 0x00000000#32))) hb (ix2 p j)
      = MlpClamp.dense (fun k => h (ix2 p k)) (fun k j => W (ix2 k j)) (fun j => b (ix1 j)) j := by
  unfold MlpClamp.dense
  refine congrArg₂ max (congrArg₂ (· + ·) ((matmulA_apply h _ p j).trans ?_) (bias_apply b h1 h2 p j)) rfl
  rw [shapeCast_self W hw]

/-- A 1024-wide hidden layer's block at `(p, j)` likewise. -/
theorem layerB_apply (h : FVec Ideal S512x1024 .bf16) (W : FVec Ideal S1024x1024 .bf16) (b : FVec Ideal S1024 .f32)
    (hw : S1024x1024.ShapeCasts S1024x1024) (h1 : S1024.ShapeCasts S1x1024) (h2 : S1x1024.Broadcasts S512x1024)
    (hb : FTy.bits .bf16 < FTy.bits .f32) (p : Fin 512) (j : Fin 1024) :
    truncf (F := Ideal) .bf16
        (maximumf
          (addf (matmul dot_S512x1024_S1024x1024_S512x1024_1_0_0_1_n_n none h (shapeCast S1024x1024 W hw) (constant S512x1024 .f32 0x00000000#32))
            (broadcastTo S512x1024 (shapeCast S1x1024 b h1) h2))
          (broadcast S512x1024 (Scalar.ofBits .f32 0x00000000#32))) hb (ix2 p j)
      = MlpClamp.dense (fun k => h (ix2 p k)) (fun k j => W (ix2 k j)) (fun j => b (ix1 j)) j := by
  unfold MlpClamp.dense
  refine congrArg₂ max (congrArg₂ (· + ·) ((matmulB_apply h _ p j).trans ?_) (bias_apply b h1 h2 p j)) rfl
  rw [shapeCast_self W hw]

/-- The last, linear layer's block at `(p, 0)` is the head of row `p` of its input block. -/
theorem head_apply (h : FVec Ideal S512x1024 .bf16) (W : FVec Ideal S1024x1 .bf16) (b : FVec Ideal S1 .f32)
    (hw : S1024x1.ShapeCasts S1024x1) (h1 : S1.ShapeCasts S1x1) (h2 : S1x1.Broadcasts S512x1) (p : Fin 512) :
    addf (F := Ideal) (matmul dot_S512x1024_S1024x1_S512x1_1_0_0_1_n_n none h (shapeCast S1024x1 W hw) (constant S512x1 .f32 0x00000000#32))
        (broadcastTo S512x1 (shapeCast S1x1 b h1) h2) (ix2 p 0)
      = MlpClamp.head (fun k => h (ix2 p k)) (fun k j => W (ix2 k j)) (fun j => b (ix1 j)) := by
  unfold MlpClamp.head
  refine congrArg₂ (· + ·) ((matmulC_apply h _ p 0).trans ?_) (bias1_apply b h1 h2 p 0)
  rw [shapeCast_self W hw]

/-- Row `p` of the block's raw network output is the per-sample network of row `p` of the input block. -/
theorem mlp_apply (x0 : Vec Ideal S512x8 .f32) (x1 : Vec Ideal S8x1024 .bf16) (x2 : Vec Ideal S1024 .f32)
    (x3 : Vec Ideal S1024x1024 .bf16) (x4 : Vec Ideal S1024 .f32) (x5 : Vec Ideal S1024x1024 .bf16) (x6 : Vec Ideal S1024 .f32)
    (x7 : Vec Ideal S1024x1 .bf16) (x8 : Vec Ideal S1 .f32) (p : Fin 512) :
    k0_pay4 (F := Ideal) (k0_pay2 x0 x1 x2 x3 x4 x5 x6 x7) (k0_pay3 x8) (ix2 p 0)
      = MlpClamp.mlp (fun k => x0 (ix2 p k)) (fun k j => x1 (ix2 k j)) (fun j => x2 (ix1 j)) (fun k j => x3 (ix2 k j))
          (fun j => x4 (ix1 j)) (fun k j => x5 (ix2 k j)) (fun j => x6 (ix1 j)) (fun k j => x7 (ix2 k j)) (fun j => x8 (ix1 j)) := by
  unfold k0_pay4 k0_pay2 k0_pay3 MlpClamp.mlp
  -- the last layer at row `p`, then under its sum each hidden layer in turn, outermost first
  refine (head_apply _ x7 x8 _ _ _ p).trans ?_
  refine congrArg (fun h => MlpClamp.head h _ _) (funext fun k3 => ?_)
  refine (layerB_apply _ x5 x6 _ _ _ _ p k3).trans ?_
  refine congrArg (fun h => MlpClamp.dense h _ _ k3) (funext fun k2 => ?_)
  refine (layerB_apply _ x3 x4 _ _ _ _ p k2).trans ?_
  refine congrArg (fun h => MlpClamp.dense h _ _ k2) (funext fun k1 => ?_)
  exact layerA_apply _ x1 x2 _ _ _ _ p k1

end Cert.KernelIdeal.Body

end
-- ==== Proof.KernelClamp.lean ====
/-
  The kernel body's clamp, read at one row of a block: every operation after the perceptron is pointwise on
  column vectors cut out of the input block, so row `p` of what the body stores is `MlpClamp.clamp` of row `p`'s five
  quantities and of row `p` of the raw network output.
-/
import proofs.«153853_j46084999086149_1_alg».proof.Proof.Gen.KernelIdeal.Skeleton
import proofs.«153853_j46084999086149_1_alg».proof.Proof.Spec
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.MlpClamp (lit gt)

variable (x0 : Vec Ideal S512x8 .f32) (p : Fin 512)

/-- Column `o` of the block, as a column vector, at row `p`. -/
theorem column_apply (o : Nat) (ho : o < 8) (h : S512x8.Slices ![0, o] S512x1) :
    extractStridedSlice S512x1 ![0, o] x0 h (ix2 p 0) = x0 (ix2 p ⟨o, ho⟩) :=
  slice2_axis1_apply o x0 h p 0 ⟨o, ho⟩ rfl

/-- Cement: column 0. -/
theorem cement_apply : k0_pay5 (F := Ideal) x0 (ix2 p 0) = x0 (ix2 p 0) := by
  unfold k0_pay5; exact column_apply x0 p 0 (by decide) _

/-- Water: column 3. -/
theorem water_apply : k0_pay6 (F := Ideal) x0 (ix2 p 0) = x0 (ix2 p 3) := by
  unfold k0_pay6; exact column_apply x0 p 3 (by decide) _

/-- Supplementary material: slag + fly ash, columns 1 and 2. -/
theorem scm_apply : k0_pay9 (F := Ideal) x0 (ix2 p 0) = x0 (ix2 p 1) + x0 (ix2 p 2) := by
  show extractStridedSlice S512x1 ![0, 1] x0 _ (ix2 p 0) + extractStridedSlice S512x1 ![0, 2] x0 _ (ix2 p 0) = _
  rw [column_apply x0 p 1 (by decide), column_apply x0 p 2 (by decide)]
  rfl

theorem waterCement_apply : k0_pay8 (F := Ideal) x0 (ix2 p 0) = MlpClamp.waterCement (x0 (ix2 p 0)) (x0 (ix2 p 3)) := by
  show Ideal.div (k0_pay6 (F := Ideal) x0 (ix2 p 0)) (Scalar.select (gt (k0_pay5 (F := Ideal) x0 (ix2 p 0)) (lit 0x00000000#32)) (k0_pay5 (F := Ideal) x0 (ix2 p 0)) (lit 0x3F800000#32)) = _
  rw [cement_apply, water_apply]
  rfl

theorem exp_apply' {s : Shape} {φ : FTy} (a : FVec Ideal s φ) (i : s.Idx) : exp a i = Ideal.exp (a i) := rfl
theorem andi_apply' {s : Shape} {w : Nat} (a b : IVec s w) (i : s.Idx) : andi a b i = IntOp.andi (a i) (b i) := rfl

theorem valid_apply : k0_pay7 (F := Ideal) x0 (ix2 p 0)
    = IntOp.andi (gt (x0 (ix2 p 0)) (lit 0x00000000#32)) (gt (x0 (ix2 p 3)) (lit 0x00000000#32)) := by
  show IntOp.andi (gt (k0_pay5 (F := Ideal) x0 (ix2 p 0)) (lit 0x00000000#32)) (gt (k0_pay6 (F := Ideal) x0 (ix2 p 0)) (lit 0x00000000#32)) = _
  rw [cement_apply, water_apply]

theorem hydration_apply : k0_pay10 (F := Ideal) x0 (ix2 p 0)
    = MlpClamp.hydration (x0 (ix2 p 0)) (x0 (ix2 p 1) + x0 (ix2 p 2)) (MlpClamp.waterCement (x0 (ix2 p 0)) (x0 (ix2 p 3))) (x0 (ix2 p 7)) := by
  unfold k0_pay10
  simp only [mulf_apply, subf_apply, addf_apply, divf_apply, maximumf_apply, minimumf_apply, exp_apply', broadcast_apply,
    cement_apply, scm_apply, waterCement_apply, column_apply x0 p 7 (by decide)]
  unfold MlpClamp.hydration
  simp only [Ideal.ofBits_def, Ideal.ofBits_zero_f32, zero_sub]
  rfl

theorem binder_apply : k0_pay11 (F := Ideal) x0 (ix2 p 0) = x0 (ix2 p 0) + (x0 (ix2 p 1) + x0 (ix2 p 2)) := by
  show k0_pay5 (F := Ideal) x0 (ix2 p 0) + k0_pay9 (F := Ideal) x0 (ix2 p 0) = _
  rw [cement_apply, scm_apply]

theorem binderPos_apply : k0_pay12 (F := Ideal) x0 (ix2 p 0) = gt (x0 (ix2 p 0) + (x0 (ix2 p 1) + x0 (ix2 p 2))) (lit 0x00000000#32) := by
  show gt (k0_pay11 (F := Ideal) x0 (ix2 p 0)) (lit 0x00000000#32) = _
  rw [binder_apply]

/-- `g · (g · g)` is the cube. -/
theorem cube_eq (g : EReal) : g * (g * g) = MlpClamp.cube g := (mul_assoc g g g).symm

/-- Row `p` of the stored block is the clamp of row `p`'s quantities and raw output. -/
theorem clamp_apply (raw : FVec Ideal S512x1 .f32) :
    k0_pay1 (F := Ideal) raw (k0_pay5 x0) (k0_pay6 x0) (k0_pay7 x0) (k0_pay8 x0) (k0_pay9 x0) (k0_pay10 x0) (k0_pay11 x0) (k0_pay12 x0) (ix2 p 0)
      = MlpClamp.clamp (x0 (ix2 p 0)) (x0 (ix2 p 1)) (x0 (ix2 p 2)) (x0 (ix2 p 3)) (x0 (ix2 p 7)) (raw (ix2 p 0)) := by
  unfold k0_pay1
  simp only [select_apply, andi_apply', cmpf_apply, Ideal.cmpf_def, minimumf_apply, maximumf_apply, mulf_apply, divf_apply, addf_apply,
    broadcast_apply, cement_apply, water_apply, valid_apply, waterCement_apply, scm_apply, hydration_apply, binder_apply,
    binderPos_apply, Ideal.ofBits_def, cube_eq]
  rfl

end Cert.KernelIdeal.Body

end
-- ==== Proof.Batch.lean ====
/-
  From blocks to the array. Grid point `t` stages rows `512 t … 512 t + 511` of the input and every weight and bias
  array whole, and writes back a column block of 512 results; row `p` of that block is the per-sample function of
  row `512 t + p` of the input (the body's perceptron and clamp read at a row), so the block is block `t` of
  `MlpClamp.result` of the argument arrays. The 64 blocks tile the result array, which therefore ends holding it.
  The weights the region finds are the host's bf16 copies of the arguments: the same extended reals.
-/
import proofs.«153853_j46084999086149_1_alg».proof.Proof.BlockValue
import proofs.«153853_j46084999086149_1_alg».proof.Proof.KernelMlp
import proofs.«153853_j46084999086149_1_alg».proof.Proof.KernelClamp
import proofs.«153853_j46084999086149_1_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Batch

open Cert.KernelIdeal Cert.KernelIdeal.Gen Cert.KernelIdeal.BlockValue Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The arrays the region finds -/

/-- The host's bf16 copy of `W1` is `W1`: a change of float format is the identity on the extended reals. -/
theorem V_W1 (c : Dev nD) : (V m c main_call0_v0 : S8x1024.Idx → EReal) = m ((c : Thread nD τ).loc main_arg1) := by
  dsimp only [Gen.V, Gen.hostOps0]; after_results; rfl
theorem V_W2 (c : Dev nD) : (V m c main_call0_v1 : S1024x1024.Idx → EReal) = m ((c : Thread nD τ).loc main_arg3) := by
  dsimp only [Gen.V, Gen.hostOps0]; after_results; rfl
theorem V_W3 (c : Dev nD) : (V m c main_call0_v2 : S1024x1024.Idx → EReal) = m ((c : Thread nD τ).loc main_arg5) := by
  dsimp only [Gen.V, Gen.hostOps0]; after_results; rfl
theorem V_W4 (c : Dev nD) : (V m c main_call0_v3 : S1024x1.Idx → EReal) = m ((c : Thread nD τ).loc main_arg7) := by
  dsimp only [Gen.V, Gen.hostOps0]; after_results; rfl

/-- The printed index maps over the grid: the input and the output move one block of rows per point, every other window
    stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem point_lt (t : Fin cfg0.N) : t.val < 64 := by
  have h := t.isLt; have e : cfg0.N = 64 := N_0; omega

/-! ## Each window's block at a point, read at an index -/

/-- The input block at point `t` is rows `512 t …` of the input. -/
theorem xblk_apply (c : Dev nD) (t : Fin cfg0.N) (p : Fin 512) (k : Fin 8) :
    (iblk m c 0 t : Vec Ideal S512x8 .f32) (ix2 p k)
      = (m ((c : Thread nD τ).loc main_arg0) : S32768x8.Idx → EReal) (ix2 ⟨512 * t.val + p.val, by have := point_lt t; omega⟩ k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 8 + 1 * k.val = k.val; rw [e1]; omega

/-- `W1` is staged whole at every point. -/
theorem w1blk_apply (c : Dev nD) (t : Fin cfg0.N) (k : Fin 8) (j : Fin 1024) :
    (iblk m c 1 t : Vec Ideal S8x1024 .bf16) (ix2 k j)
      = (m ((c : Thread nD τ).loc main_arg1) : S8x1024.Idx → EReal) (ix2 k j) := by
  obtain ⟨-, -, e0, e1, -⟩ := idx_facts t
  unfold iblk
  rw [View.read_apply]
  show V m c main_call0_v0 _ = _
  rw [V_W1]
  congr 1
  funext a
  apply Fin.ext
  match a with
  | ⟨0, _⟩ => show win0_1.index t (0 : Fin 2) * 8 + 1 * k.val = k.val; rw [e0]; omega
  | ⟨1, _⟩ => show win0_1.index t (1 : Fin 2) * 1024 + 1 * j.val = j.val; rw [e1]; omega

/-- `b1` is staged whole at every point. -/
theorem b1blk_apply (c : Dev nD) (t : Fin cfg0.N) (j : Fin 1024) :
    (iblk m c 2 t : Vec Ideal S1024 .f32) (ix1 j)
      = (m ((c : Thread nD τ).loc main_arg2) : S1024.Idx → EReal) (ix1 j) := by
  obtain ⟨-, -, -, -, e0, -⟩ := idx_facts t
  unfold iblk
  rw [View.read_apply]
  show V m c main_arg2 _ = _
  rw [V_main_arg2]
  congr 1
  funext a
  apply Fin.ext
  match a with
  | ⟨0, _⟩ => show win0_2.index t (0 : Fin 1) * 1024 + 1 * j.val = j.val; rw [e0]; omega

/-- `W2` is staged whole at every point. -/
theorem w2blk_apply (c : Dev nD) (t : Fin cfg0.N) (k : Fin 1024) (j : Fin 1024) :
    (iblk m c 3 t : Vec Ideal S1024x1024 .bf16) (ix2 k j)
      = (m ((c : Thread nD τ).loc main_arg3) : S1024x1024.Idx → EReal) (ix2 k j) := by
  obtain ⟨-, -, -, -, -, e0, e1, -⟩ := idx_facts t
  unfold iblk
  rw [View.read_apply]
  show V m c main_call0_v1 _ = _
  rw [V_W2]
  congr 1
  funext a
  apply Fin.ext
  match a with
  | ⟨0, _⟩ => show win0_3.index t (0 : Fin 2) * 1024 + 1 * k.val = k.val; rw [e0]; omega
  | ⟨1, _⟩ => show win0_3.index t (1 : Fin 2) * 1024 + 1 * j.val = j.val; rw [e1]; omega

/-- `b2` is staged whole at every point. -/
theorem b2blk_apply (c : Dev nD) (t : Fin cfg0.N) (j : Fin 1024) :
    (iblk m c 4 t : Vec Ideal S1024 .f32) (ix1 j)
      = (m ((c : Thread nD τ).loc main_arg4) : S1024.Idx → EReal) (ix1 j) := by
  obtain ⟨-, -, -, -, -, -, -, e0, -⟩ := idx_facts t
  unfold iblk
  rw [View.read_apply]
  show V m c main_arg4 _ = _
  rw [V_main_arg4]
  congr 1
  funext a
  apply Fin.ext
  match a with
  | ⟨0, _⟩ => show win0_4.index t (0 : Fin 1) * 1024 + 1 * j.val = j.val; rw [e0]; omega

/-- `W3` is staged whole at every point. -/
theorem w3blk_apply (c : Dev nD) (t : Fin cfg0.N) (k : Fin 1024) (j : Fin 1024) :
    (iblk m c 5 t : Vec Ideal S1024x1024 .bf16) (ix2 k j)
      = (m ((c : Thread nD τ).loc main_arg5) : S1024x1024.Idx → EReal) (ix2 k j) := by
  obtain ⟨-, -, -, -, -, -, -, -, e0, e1, -⟩ := idx_facts t
  unfold iblk
  rw [View.read_apply]
  show V m c main_call0_v2 _ = _
  rw [V_W3]
  congr 1
  funext a
  apply Fin.ext
  match a with
  | ⟨0, _⟩ => show win0_5.index t (0 : Fin 2) * 1024 + 1 * k.val = k.val; rw [e0]; omega
  | ⟨1, _⟩ => show win0_5.index t (1 : Fin 2) * 1024 + 1 * j.val = j.val; rw [e1]; omega

/-- `b3` is staged whole at every point. -/
theorem b3blk_apply (c : Dev nD) (t : Fin cfg0.N) (j : Fin 1024) :
    (iblk m c 6 t : Vec Ideal S1024 .f32) (ix1 j)
      = (m ((c : Thread nD τ).loc main_arg6) : S1024.Idx → EReal) (ix1 j) := by
  obtain ⟨-, -, -, -, -, -, -, -, -, -, e0, -⟩ := idx_facts t
  unfold iblk
  rw [View.read_apply]
  show V m c main_arg6 _ = _
  rw [V_main_arg6]
  congr 1
  funext a
  apply Fin.ext
  match a with
  | ⟨0, _⟩ => show win0_6.index t (0 : Fin 1) * 1024 + 1 * j.val = j.val; rw [e0]; omega

/-- `W4` is staged whole at every point. -/
theorem w4blk_apply (c : Dev nD) (t : Fin cfg0.N) (k : Fin 1024) (j : Fin 1) :
    (iblk m c 7 t : Vec Ideal S1024x1 .bf16) (ix2 k j)
      = (m ((c : Thread nD τ).loc main_arg7) : S1024x1.Idx → EReal) (ix2 k j) := by
  obtain ⟨-, -, -, -, -, -, -, -, -, -, -, e0, e1, -⟩ := idx_facts t
  unfold iblk
  rw [View.read_apply]
  show V m c main_call0_v3 _ = _
  rw [V_W4]
  congr 1
  funext a
  apply Fin.ext
  match a with
  | ⟨0, _⟩ => show win0_7.index t (0 : Fin 2) * 1024 + 1 * k.val = k.val; rw [e0]; omega
  | ⟨1, _⟩ => show win0_7.index t (1 : Fin 2) * 1 + 1 * j.val = j.val; rw [e1]; omega

/-- `b4` is staged whole at every point. -/
theorem b4blk_apply (c : Dev nD) (t : Fin cfg0.N) (j : Fin 1) :
    (iblk m c 8 t : Vec Ideal S1 .f32) (ix1 j)
      = (m ((c : Thread nD τ).loc main_arg8) : S1.Idx → EReal) (ix1 j) := by
  obtain ⟨-, -, -, -, -, -, -, -, -, -, -, -, -, e0, -⟩ := idx_facts t
  unfold iblk
  rw [View.read_apply]
  show V m c main_arg8 _ = _
  rw [V_main_arg8]
  congr 1
  funext a
  apply Fin.ext
  match a with
  | ⟨0, _⟩ => show win0_8.index t (0 : Fin 1) * 1 + 1 * j.val = j.val; rw [e0]; omega

/-! ## What point `t` writes back, and the array after the run -/

/-- The batch function of the argument arrays. -/
abbrev G (c : Dev nD) : S32768x1.Idx → EReal :=
  MlpClamp.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The nine input blocks at a point, at their literal types. -/
abbrev xblk (c : Dev nD) (t : Fin cfg0.N) : Vec Ideal S512x8 .f32 := iblk m c 0 t
abbrev w1blk (c : Dev nD) (t : Fin cfg0.N) : Vec Ideal S8x1024 .bf16 := iblk m c 1 t
abbrev b1blk (c : Dev nD) (t : Fin cfg0.N) : Vec Ideal S1024 .f32 := iblk m c 2 t
abbrev w2blk (c : Dev nD) (t : Fin cfg0.N) : Vec Ideal S1024x1024 .bf16 := iblk m c 3 t
abbrev b2blk (c : Dev nD) (t : Fin cfg0.N) : Vec Ideal S1024 .f32 := iblk m c 4 t
abbrev w3blk (c : Dev nD) (t : Fin cfg0.N) : Vec Ideal S1024x1024 .bf16 := iblk m c 5 t
abbrev b3blk (c : Dev nD) (t : Fin cfg0.N) : Vec Ideal S1024 .f32 := iblk m c 6 t
abbrev w4blk (c : Dev nD) (t : Fin cfg0.N) : Vec Ideal S1024x1 .bf16 := iblk m c 7 t
abbrev b4blk (c : Dev nD) (t : Fin cfg0.N) : Vec Ideal S1 .f32 := iblk m c 8 t

/-- Row `p` of what the body leaves at point `t` is the per-sample function of row `512 t + p` of the input. -/
theorem body_row (c : Dev nD) (t : Fin cfg0.N) (p : Fin 512) :
    k0_pay1 (F := Ideal)
        (k0_pay4 (k0_pay2 (xblk m c t) (w1blk m c t) (b1blk m c t) (w2blk m c t) (b2blk m c t) (w3blk m c t) (b3blk m c t) (w4blk m c t))
          (k0_pay3 (b4blk m c t)))
        (k0_pay5 (xblk m c t)) (k0_pay6 (xblk m c t)) (k0_pay7 (xblk m c t)) (k0_pay8 (xblk m c t)) (k0_pay9 (xblk m c t))
        (k0_pay10 (xblk m c t)) (k0_pay11 (xblk m c t)) (k0_pay12 (xblk m c t)) (ix2 p 0)
      = G m c (ix2 ⟨512 * t.val + p.val, by have := point_lt t; omega⟩ 0) := by
  rw [Body.clamp_apply (xblk m c t) p
        (k0_pay4 (k0_pay2 (xblk m c t) (w1blk m c t) (b1blk m c t) (w2blk m c t) (b2blk m c t) (w3blk m c t) (b3blk m c t) (w4blk m c t)) (k0_pay3 (b4blk m c t))),
    Body.mlp_apply (xblk m c t) (w1blk m c t) (b1blk m c t) (w2blk m c t) (b2blk m c t) (w3blk m c t) (b3blk m c t) (w4blk m c t) (b4blk m c t) p]
  simp only [xblk_apply, w1blk_apply, b1blk_apply, w2blk_apply, b2blk_apply, w3blk_apply, b3blk_apply, w4blk_apply, b4blk_apply]
  rfl

/-- WHAT POINT `t` WRITES BACK is block `t` of the batch function of the arguments. -/
theorem flushed_eq (c : Dev nD) (t : Fin cfg0.N) :
    (dats m 0 c).flushed 9 t = ((cfg0.win 9).blk t).view.read (Elt Ideal) (G m c) := by
  rw [flushed9]
  unfold out0_9
  rw [View.canon_unit_zero hz2]
  simp only [View.ld_unit_zero (S := S512x8) hz2, View.ld_unit_zero (S := S8x1024) hz2, View.ld_unit_zero (S := S1024) hz1,
    View.ld_unit_zero (S := S1024x1024) hz2, View.ld_unit_zero (S := S1024x1) hz2, View.ld_unit_zero (S := S1) hz1]
  obtain ⟨-, -, -, -, -, -, -, -, -, -, -, -, -, -, e0, e1⟩ := idx_facts t
  refine funext fun (j : S512x1.Idx) => ?_
  obtain ⟨p, q, rfl⟩ : ∃ (p : Fin 512) (q : Fin 1), j = ix2 p q := ⟨j 0, j 1, eq_ix2 j⟩
  obtain rfl : q = 0 := Subsingleton.elim _ _
  refine (body_row m c t p).trans ?_
  rw [View.read_apply]
  congr 1
  funext a
  apply Fin.ext
  match a with
  | ⟨0, _⟩ => show 512 * t.val + p.val = win0_9.index t (0 : Fin 2) * 512 + 1 * p.val; rw [e0]; omega
  | ⟨1, _⟩ => show 0 = win0_9.index t (1 : Fin 2) * 1 + 1 * 0; rw [e1]

/-- An index of the result array is in point `t`'s block iff each coordinate is in the block's range on its axis. -/
theorem mem_blk (t : Fin cfg0.N) (i : S32768x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v0).slice (win0_9.rect t)).set ↔ _
  rw [View.set_slice_whole, Rect.mem_set_unit]
  exact Iff.rfl

/-- The 64 blocks of 512 rows tile the result array: row `r` is in the block of point `r / 512`. -/
theorem cover (i : S32768x1.Idx) : ∃ t : Fin cfg0.N, (cfg0.win 9).flush t = true ∧ i ∈ ((cfg0.win 9).blk t).view.set := by
  have hi0 : (i 0).val < 32768 := (i 0).isLt
  have hi1 : (i 1).val < 1 := (i 1).isLt
  have hN : cfg0.N = 64 := N_0
  let t : Fin cfg0.N := ⟨(i 0).val / 512, by rw [hN]; omega⟩
  obtain ⟨-, -, -, -, -, -, -, -, -, -, -, -, -, -, e0, e1⟩ := idx_facts t
  have ht : t.val = (i 0).val / 512 := rfl
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; rw [e0, ht]; omega
  | ⟨1, _⟩ => show win0_9.index t (1 : Fin 2) * 1 ≤ (i 1).val ∧ (i 1).val < win0_9.index t (1 : Fin 2) * 1 + 1; rw [e1]; omega

/-- THE ARRAY after the run is the batch function of the arguments. -/
theorem final (c : Dev nD) : (dats m 0 c).arrAt 9 cfg0.N = G m c :=
  (dats m 0 c).arrAt_eq_of_cover 9 (G m c) (fun t _ => flushed_eq m c t) cover

/-- The kernel's run, read: the result array at the batch function of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Batch

end
-- ==== Proof.RefMlp.lean ====
/-
  The reference's perceptron read at an index: row `r` of the raw output `h₃ · W4 + b4` is the per-sample network
  `MlpClamp.mlp` of row `r` of the input, each `dot_general` a sum over the contracted axis and each bias a broadcast row.
-/
import proofs.«153853_j46084999086149_1_alg».proof.Proof.Gen.ReferenceIdeal.Read
import proofs.«153853_j46084999086149_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- First hidden layer: element `(r, j)` of `max (x · W1 + b1) 0` is the dense layer of row `r` of the input at `j`. -/
theorem layer1_apply (x0 : (⟨S32768x8, .f32⟩ : BufTy).Contents (Elt Ideal)) (x1 : (⟨S8x1024, .f32⟩ : BufTy).Contents (Elt Ideal))
    (x2 : (⟨S1024, .f32⟩ : BufTy).Contents (Elt Ideal)) (r : Fin 32768) (j : Fin 1024) :
    val_main_v4 (F := Ideal) x0 x1 x2 (ix2 r j)
      = MlpClamp.dense (MlpClamp.mat x0 r) (MlpClamp.mat x1) (MlpClamp.vec x2) j := by
  rw [val_main_v4_apply, val_main_v3_apply, val_main_v0_apply, val_main_v2_apply, val_main_v1_apply,
    val_main_call0_v0_apply, val_main_call0_cst_apply]
  -- the contraction reads row `r` of the left operand and column `j` of the right; the bias is read at `j`
  have el : ∀ k : Fin 8, lidx_main_v0 (ix2 r j) k = ix2 r k := fun k =>
    funext fun a => by match a with | ⟨0, _⟩ => rfl | ⟨1, _⟩ => rfl
  have er : ∀ k : Fin 8, ridx_main_v0 (ix2 r j) k = ix2 k j := fun k =>
    funext fun a => by match a with | ⟨0, _⟩ => rfl | ⟨1, _⟩ => rfl
  have eb : idx_main_v1 (idx_main_v2 (ix2 r j)) = ix1 j :=
    funext fun a => by match a with | ⟨0, _⟩ => rfl
  simp only [el, er, eb]
  rfl

/-- Second hidden layer: element `(r, j)` of `max (h₁ · W2 + b2) 0` is the dense layer of the first layer's row `r`. -/
theorem layer2_apply (x0 : (⟨S32768x8, .f32⟩ : BufTy).Contents (Elt Ideal)) (x1 : (⟨S8x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (r : Fin 32768) (j : Fin 1024) :
    val_main_v9 (F := Ideal) x0 x1 x2 x3 x4 (ix2 r j)
      = MlpClamp.dense (MlpClamp.dense (MlpClamp.mat x0 r) (MlpClamp.mat x1) (MlpClamp.vec x2))
          (MlpClamp.mat x3) (MlpClamp.vec x4) j := by
  rw [val_main_v9_apply, val_main_v8_apply, val_main_v5_apply, val_main_v7_apply, val_main_v6_apply,
    val_main_call1_v0_apply, val_main_call1_cst_apply]
  have el : ∀ k : Fin 1024, lidx_main_v5 (ix2 r j) k = ix2 r k := fun k =>
    funext fun a => by match a with | ⟨0, _⟩ => rfl | ⟨1, _⟩ => rfl
  have er : ∀ k : Fin 1024, ridx_main_v5 (ix2 r j) k = ix2 k j := fun k =>
    funext fun a => by match a with | ⟨0, _⟩ => rfl | ⟨1, _⟩ => rfl
  have eb : idx_main_v6 (idx_main_v7 (ix2 r j)) = ix1 j :=
    funext fun a => by match a with | ⟨0, _⟩ => rfl
  -- under the sum the previous layer's element `(r, k)` is its dense layer at `k`
  simp only [el, er, eb, layer1_apply]
  rfl

/-- Third hidden layer: element `(r, j)` of `max (h₂ · W3 + b3) 0` is the dense layer of the second layer's row `r`. -/
theorem layer3_apply (x0 : (⟨S32768x8, .f32⟩ : BufTy).Contents (Elt Ideal)) (x1 : (⟨S8x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (r : Fin 32768) (j : Fin 1024) :
    val_main_v14 (F := Ideal) x0 x1 x2 x3 x4 x5 x6 (ix2 r j)
      = MlpClamp.dense (MlpClamp.dense (MlpClamp.dense (MlpClamp.mat x0 r) (MlpClamp.mat x1) (MlpClamp.vec x2))
          (MlpClamp.mat x3) (MlpClamp.vec x4)) (MlpClamp.mat x5) (MlpClamp.vec x6) j := by
  rw [val_main_v14_apply, val_main_v13_apply, val_main_v10_apply, val_main_v12_apply, val_main_v11_apply,
    val_main_call2_v0_apply, val_main_call2_cst_apply]
  have el : ∀ k : Fin 1024, lidx_main_v10 (ix2 r j) k = ix2 r k := fun k =>
    funext fun a => by match a with | ⟨0, _⟩ => rfl | ⟨1, _⟩ => rfl
  have er : ∀ k : Fin 1024, ridx_main_v10 (ix2 r j) k = ix2 k j := fun k =>
    funext fun a => by match a with | ⟨0, _⟩ => rfl | ⟨1, _⟩ => rfl
  have eb : idx_main_v11 (idx_main_v12 (ix2 r j)) = ix1 j :=
    funext fun a => by match a with | ⟨0, _⟩ => rfl
  simp only [el, er, eb, layer2_apply]
  rfl

/-- Row `i 0` of the reference's raw network output is the per-sample network of that row of the input. -/
theorem raw_apply (x0 : (⟨S32768x8, .f32⟩ : BufTy).Contents (Elt Ideal)) (x1 : (⟨S8x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal)) (i : S32768x1.Idx) :
    val_main_v18 (F := Ideal) x0 x1 x2 x3 x4 x5 x6 x7 x8 i
      = MlpClamp.mlp (MlpClamp.mat x0 (i 0)) (MlpClamp.mat x1) (MlpClamp.vec x2) (MlpClamp.mat x3) (MlpClamp.vec x4)
          (MlpClamp.mat x5) (MlpClamp.vec x6) (MlpClamp.mat x7) (MlpClamp.vec x8) := by
  obtain ⟨r, q, rfl⟩ : ∃ (r : Fin 32768) (q : Fin 1), i = ix2 r q := ⟨i 0, i 1, eq_ix2 i⟩
  -- the output has one column
  obtain rfl : q = 0 := Subsingleton.elim _ _
  rw [val_main_v18_apply, val_main_v15_apply, val_main_v17_apply, val_main_v16_apply]
  have el : ∀ k : Fin 1024, lidx_main_v15 (ix2 r (0 : Fin 1)) k = ix2 r k := fun k =>
    funext fun a => by match a with | ⟨0, _⟩ => rfl | ⟨1, _⟩ => rfl
  have er : ∀ k : Fin 1024, ridx_main_v15 (ix2 r (0 : Fin 1)) k = ix2 k (0 : Fin 1) := fun k =>
    funext fun a => by match a with | ⟨0, _⟩ => rfl | ⟨1, _⟩ => rfl
  have eb : idx_main_v16 (idx_main_v17 (ix2 r (0 : Fin 1))) = ix1 (0 : Fin 1) :=
    funext fun a => by match a with | ⟨0, _⟩ => rfl
  simp only [el, er, eb, layer3_apply]
  rfl

end Cert.ReferenceIdeal.RefValue

end
-- ==== Proof.RefRead.lean ====
/-
  The reference's result array is `MlpClamp.result` of its arguments: read one operation at a time at an index,
  each dense layer's element is the sum over the contracted axis plus the broadcast bias, floored at zero, and
  every later operation is pointwise on columns sliced out of the input.
-/
import proofs.«153853_j46084999086149_1_alg».proof.Proof.Gen.ReferenceIdeal.Read
import proofs.«153853_j46084999086149_1_alg».proof.Proof.Spec
import proofs.«153853_j46084999086149_1_alg».proof.Proof.RefMlp
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The column slices: column `k` of the input at row `r` -/

theorem idx19_eq (r : Fin 32768) (q : Fin 1) : idx_main_v19 (ix2 r q) = ix2 r (0 : Fin 8) := by
  funext a
  match a with
  | ⟨0, _⟩ => rfl
  | ⟨1, _⟩ => exact Fin.ext (by have h : q.val < 1 := q.isLt; show q.val = 0; omega)
theorem idx20_eq (r : Fin 32768) (q : Fin 1) : idx_main_v20 (ix2 r q) = ix2 r (1 : Fin 8) := by
  funext a
  match a with
  | ⟨0, _⟩ => rfl
  | ⟨1, _⟩ => exact Fin.ext (by have h : q.val < 1 := q.isLt; show 1 + q.val = 1; omega)
theorem idx21_eq (r : Fin 32768) (q : Fin 1) : idx_main_v21 (ix2 r q) = ix2 r (2 : Fin 8) := by
  funext a
  match a with
  | ⟨0, _⟩ => rfl
  | ⟨1, _⟩ => exact Fin.ext (by have h : q.val < 1 := q.isLt; show 2 + q.val = 2; omega)
theorem idx22_eq (r : Fin 32768) (q : Fin 1) : idx_main_v22 (ix2 r q) = ix2 r (3 : Fin 8) := by
  funext a
  match a with
  | ⟨0, _⟩ => rfl
  | ⟨1, _⟩ => exact Fin.ext (by have h : q.val < 1 := q.isLt; show 3 + q.val = 3; omega)
theorem idx23_eq (r : Fin 32768) (q : Fin 1) : idx_main_v23 (ix2 r q) = ix2 r (7 : Fin 8) := by
  funext a
  match a with
  | ⟨0, _⟩ => rfl
  | ⟨1, _⟩ => exact Fin.ext (by have h : q.val < 1 := q.isLt; show 7 + q.val = 7; omega)

section Stages

variable (x0 : (⟨S32768x8, .f32⟩ : BufTy).Contents (Elt Ideal))

theorem v19_eq (r : Fin 32768) (q : Fin 1) : val_main_v19 (F := Ideal) x0 (ix2 r q) = x0 (ix2 r 0) := by
  rw [val_main_v19_apply, idx19_eq]
theorem v20_eq (r : Fin 32768) (q : Fin 1) : val_main_v20 (F := Ideal) x0 (ix2 r q) = x0 (ix2 r 1) := by
  rw [val_main_v20_apply, idx20_eq]
theorem v21_eq (r : Fin 32768) (q : Fin 1) : val_main_v21 (F := Ideal) x0 (ix2 r q) = x0 (ix2 r 2) := by
  rw [val_main_v21_apply, idx21_eq]
theorem v22_eq (r : Fin 32768) (q : Fin 1) : val_main_v22 (F := Ideal) x0 (ix2 r q) = x0 (ix2 r 3) := by
  rw [val_main_v22_apply, idx22_eq]
theorem v23_eq (r : Fin 32768) (q : Fin 1) : val_main_v23 (F := Ideal) x0 (ix2 r q) = x0 (ix2 r 7) := by
  rw [val_main_v23_apply, idx23_eq]

/-! ## The broadcast scalar constants: each is the literal its word denotes, at every index -/

theorem v24_eq (i : S32768x1.Idx) : val_main_v24 (F := Ideal) i = MlpClamp.lit 0x3F800000#32 := (val_main_v24_apply i).trans rfl
theorem v26_eq (i : S32768x1.Idx) : val_main_v26 (F := Ideal) i = MlpClamp.lit 0x00000000#32 := (val_main_v26_apply i).trans rfl
theorem v28_eq (i : S32768x1.Idx) : val_main_v28 (F := Ideal) i = MlpClamp.lit 0x00000000#32 := (val_main_v28_apply i).trans rfl
theorem v31_eq (i : S32768x1.Idx) : val_main_v31 (F := Ideal) i = MlpClamp.lit 0x00000000#32 := (val_main_v31_apply i).trans rfl
theorem call3_v1_eq (i : S32768x1.Idx) : val_main_call3_v1 (F := Ideal) i = MlpClamp.lit 0x3F800000#32 := (val_main_call3_v1_apply i).trans rfl
theorem v36_eq (i : S32768x1.Idx) : val_main_v36 (F := Ideal) i = MlpClamp.lit 0x3E19999A#32 := (val_main_v36_apply i).trans rfl
theorem v39_eq (i : S32768x1.Idx) : val_main_v39 (F := Ideal) i = MlpClamp.lit 0x3DCCCCCD#32 := (val_main_v39_apply i).trans rfl
theorem v42_eq (i : S32768x1.Idx) : val_main_v42 (F := Ideal) i = MlpClamp.lit 0x3F733333#32 := (val_main_v42_apply i).trans rfl
theorem v44_eq (i : S32768x1.Idx) : val_main_v44 (F := Ideal) i = MlpClamp.lit 0x3F733333#32 := (val_main_v44_apply i).trans rfl
theorem v46_eq (i : S32768x1.Idx) : val_main_v46 (F := Ideal) i = MlpClamp.lit 0x3F800000#32 := (val_main_v46_apply i).trans rfl
theorem v48_eq (i : S32768x1.Idx) : val_main_v48 (F := Ideal) i = MlpClamp.lit 0x3DCCCCCD#32 := (val_main_v48_apply i).trans rfl
theorem v50_eq (i : S32768x1.Idx) : val_main_v50 (F := Ideal) i = MlpClamp.lit 0x3C23D70A#32 := (val_main_v50_apply i).trans rfl
theorem v55_eq (i : S32768x1.Idx) : val_main_v55 (F := Ideal) i = MlpClamp.lit 0x3F800000#32 := (val_main_v55_apply i).trans rfl
theorem v59_eq (i : S32768x1.Idx) : val_main_v59 (F := Ideal) i = MlpClamp.lit 0x00000000#32 := (val_main_v59_apply i).trans rfl
theorem call4_v1_eq (i : S32768x1.Idx) : val_main_call4_v1 (F := Ideal) i = MlpClamp.lit 0x3F800000#32 := (val_main_call4_v1_apply i).trans rfl
theorem v62_eq (i : S32768x1.Idx) : val_main_v62 (F := Ideal) i = MlpClamp.lit 0x00000000#32 := (val_main_v62_apply i).trans rfl
theorem call5_v1_eq (i : S32768x1.Idx) : val_main_call5_v1 (F := Ideal) i = MlpClamp.lit 0x3F800000#32 := (val_main_call5_v1_apply i).trans rfl
theorem call6_v1_eq (i : S32768x1.Idx) : val_main_call6_v1 (F := Ideal) i = MlpClamp.lit 0x3C23D70A#32 := (val_main_call6_v1_apply i).trans rfl
theorem call6_v4_eq (i : S32768x1.Idx) : val_main_call6_v4 (F := Ideal) i = MlpClamp.lit 0x41200000#32 := (val_main_call6_v4_apply i).trans rfl
theorem v71_eq (i : S32768x1.Idx) : val_main_v71 (F := Ideal) i = MlpClamp.lit 0x42480000#32 := (val_main_v71_apply i).trans rfl
theorem v75_eq (i : S32768x1.Idx) : val_main_v75 (F := Ideal) i = MlpClamp.lit 0x358637BD#32 := (val_main_v75_apply i).trans rfl
theorem v78_eq (i : S32768x1.Idx) : val_main_v78 (F := Ideal) i = MlpClamp.lit 0x42F00000#32 := (val_main_v78_apply i).trans rfl
theorem call7_v1_eq (i : S32768x1.Idx) : val_main_call7_v1 (F := Ideal) i = MlpClamp.lit 0x40A00000#32 := (val_main_call7_v1_apply i).trans rfl
theorem call7_v4_eq (i : S32768x1.Idx) : val_main_call7_v4 (F := Ideal) i = MlpClamp.lit 0x42F00000#32 := (val_main_call7_v4_apply i).trans rfl
theorem call8_v1_eq (i : S32768x1.Idx) : val_main_call8_v1 (F := Ideal) i = MlpClamp.lit 0x40A00000#32 := (val_main_call8_v1_apply i).trans rfl
theorem v83_eq (i : S32768x1.Idx) : val_main_v83 (F := Ideal) i = MlpClamp.lit 0x00000000#32 := (val_main_v83_apply i).trans rfl

/-! ## The stages of the clamp, at row `r` -/

/-- Supplementary material: slag plus fly ash. -/
theorem v35_eq (r : Fin 32768) (q : Fin 1) :
    val_main_v35 (F := Ideal) x0 (ix2 r q) = x0 (ix2 r 1) + x0 (ix2 r 2) := by
  rw [val_main_v35_apply, v20_eq, v21_eq]; rfl

/-- Binder: cement plus supplementary material. -/
theorem v58_eq (r : Fin 32768) (q : Fin 1) :
    val_main_v58 (F := Ideal) x0 (ix2 r q) = x0 (ix2 r 0) + (x0 (ix2 r 1) + x0 (ix2 r 2)) := by
  rw [val_main_v58_apply, v19_eq, v35_eq]; rfl

/-- The water–cement ratio. -/
theorem v34_eq (r : Fin 32768) (q : Fin 1) :
    val_main_v34 (F := Ideal) x0 (ix2 r q) = MlpClamp.waterCement (x0 (ix2 r 0)) (x0 (ix2 r 3)) := by
  rw [val_main_v34_apply, val_main_v33_apply, val_main_v32_apply, v22_eq, v19_eq, v31_eq, call3_v1_eq]; rfl

/-- The degree of hydration. -/
theorem v57_eq (r : Fin 32768) (q : Fin 1) :
    val_main_v57 (F := Ideal) x0 (ix2 r q)
      = MlpClamp.hydration (x0 (ix2 r 0)) (x0 (ix2 r 1) + x0 (ix2 r 2))
          (MlpClamp.waterCement (x0 (ix2 r 0)) (x0 (ix2 r 3))) (x0 (ix2 r 7)) := by
  rw [val_main_v57_apply, val_main_v45_apply, val_main_v43_apply, val_main_v41_apply, val_main_v37_apply,
    val_main_v40_apply, val_main_v38_apply, val_main_v56_apply, val_main_v54_apply, val_main_v53_apply,
    val_main_v52_apply, val_main_v51_apply, val_main_v49_apply, val_main_v47_apply, val_main_v25_apply,
    v44_eq, v42_eq, v36_eq, v39_eq, v55_eq, v50_eq, v46_eq, v48_eq, v24_eq, v35_eq, v19_eq, v23_eq, v34_eq]
  rfl

/-- The clipped gel–space ratio. -/
theorem v68_eq (r : Fin 32768) (q : Fin 1) :
    val_main_v68 (F := Ideal) x0 (ix2 r q)
      = MlpClamp.gelRatio (x0 (ix2 r 0)) (MlpClamp.waterCement (x0 (ix2 r 0)) (x0 (ix2 r 3)))
          (MlpClamp.hydration (x0 (ix2 r 0)) (x0 (ix2 r 1) + x0 (ix2 r 2))
            (MlpClamp.waterCement (x0 (ix2 r 0)) (x0 (ix2 r 3))) (x0 (ix2 r 7)))
          (x0 (ix2 r 0) + (x0 (ix2 r 1) + x0 (ix2 r 2))) := by
  rw [val_main_v68_apply, val_main_call6_v2_apply, val_main_v67_apply, val_main_v66_apply, val_main_v65_apply,
    val_main_v64_apply, val_main_v63_apply, val_main_v61_apply, val_main_v60_apply,
    call6_v4_eq, call6_v1_eq, call5_v1_eq, call4_v1_eq, v62_eq, v59_eq, v57_eq, v58_eq, v34_eq, v19_eq]
  rfl

/-- The cube of the clipped ratio: the reference multiplies `(g · g) · g`. -/
theorem v70_eq (r : Fin 32768) (q : Fin 1) :
    val_main_v70 (F := Ideal) x0 (ix2 r q) = MlpClamp.cube (val_main_v68 (F := Ideal) x0 (ix2 r q)) := by
  rw [val_main_v70_apply, val_main_v69_apply]; rfl

/-- The upper bound, from the cube of the clipped ratio. -/
theorem v81_eq (r : Fin 32768) (q : Fin 1) :
    val_main_v81 (F := Ideal) x0 (ix2 r q)
      = MlpClamp.upperBound (x0 (ix2 r 0)) (x0 (ix2 r 3)) (x0 (ix2 r 1) + x0 (ix2 r 2))
          (val_main_v70 (F := Ideal) x0 (ix2 r q)) := by
  rw [val_main_v81_apply, val_main_v80_apply, val_main_call7_v2_apply, val_main_v72_apply, val_main_v79_apply,
    val_main_v77_apply, val_main_v76_apply, val_main_v74_apply, val_main_v73_apply,
    call7_v4_eq, call7_v1_eq, v71_eq, v78_eq, v75_eq, v35_eq, v19_eq, v22_eq]
  rfl

/-- The mask: cement, water and binder all positive. -/
theorem v85_eq (r : Fin 32768) (q : Fin 1) :
    val_main_v85 (F := Ideal) x0 (ix2 r q)
      = IntOp.andi (IntOp.andi (MlpClamp.gt (x0 (ix2 r 0)) (MlpClamp.lit 0x00000000#32))
            (MlpClamp.gt (x0 (ix2 r 3)) (MlpClamp.lit 0x00000000#32)))
          (MlpClamp.gt (x0 (ix2 r 0) + (x0 (ix2 r 1) + x0 (ix2 r 2))) (MlpClamp.lit 0x00000000#32)) := by
  rw [val_main_v85_apply, val_main_v30_apply, val_main_v27_apply, val_main_v29_apply, val_main_v84_apply,
    v26_eq, v28_eq, v83_eq, v19_eq, v22_eq, v58_eq]
  rfl

end Stages

/-- The reference run's result term, at the extended reals, is the batch function of the arguments. -/
theorem result_eq (x0 : (⟨S32768x8, .f32⟩ : BufTy).Contents (Elt Ideal)) (x1 : (⟨S8x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal)) :
    val_main_v86 (F := Ideal) x0 x1 x2 x3 x4 x5 x6 x7 x8 = MlpClamp.result x0 x1 x2 x3 x4 x5 x6 x7 x8 := by
  funext i
  obtain ⟨r, q, rfl⟩ : ∃ (r : Fin 32768) (q : Fin 1), i = ix2 r q := ⟨i 0, i 1, eq_ix2 i⟩
  rw [val_main_v86_apply, val_main_v82_apply, val_main_call8_v2_apply, v85_eq, v81_eq, v70_eq, v68_eq,
    call8_v1_eq, raw_apply]
  rfl

end Cert.ReferenceIdeal.RefValue

end
-- ==== Proof.lean ====
/-
  A four-layer perceptron (three ReLU layers of width 1024 on 8 input features, then a linear head) whose raw output
  is clamped, sample by sample, by a closed-form bound computed from the same input row: the Pallas kernel does both
  in one pass over blocks of 512 rows, with bf16 copies of the weights and bf16 casts between the layers; the
  reference is the plain jnp program over the whole batch in f32.

  On the extended reals a change of float format is the identity, a matrix product onto a zero accumulator and the
  host's `dot_general` are the same sum over the contracted axis, and every operation of the clamp is the same
  pointwise operation with the same literal words on both sides. The two places where the texts differ are
  `0 - k` against `-k` (equal because the zero word denotes 0) and `g · (g · g)` against `(g · g) · g`
  (associativity). So each row of the result is ONE function of that row of the input and of the weights,
  `MlpClamp.sample` (Proof/Spec.lean), and both result arrays are `MlpClamp.result` of the arguments:
    * the kernel's, block by block (Proof/KernelMlp.lean, Proof/KernelClamp.lean: the body read at a row;
      Proof/Batch.lean: the 64 blocks tile the array);
    * the reference's, one operation at a time (Proof/RefMlp.lean, Proof/RefRead.lean).
  No law used needs finiteness, so the precondition is never opened.
-/
import proofs.«153853_j46084999086149_1_alg».proof.Defs
import proofs.«153853_j46084999086149_1_alg».proof.Proof.Gen.Kernel
import proofs.«153853_j46084999086149_1_alg».proof.Proof.Gen.Kernel.Skeleton
import proofs.«153853_j46084999086149_1_alg».proof.Proof.Gen.Kernel.Launch
import proofs.«153853_j46084999086149_1_alg».proof.Proof.Gen.Kernel.Points
import proofs.«153853_j46084999086149_1_alg».proof.Proof.Gen.Kernel.Frame
import proofs.«153853_j46084999086149_1_alg».proof.Proof.Gen.KernelIdeal
import proofs.«153853_j46084999086149_1_alg».proof.Proof.Gen.KernelIdeal.Skeleton
import proofs.«153853_j46084999086149_1_alg».proof.Proof.Gen.KernelIdeal.Launch
import proofs.«153853_j46084999086149_1_alg».proof.Proof.Gen.KernelIdeal.Points
import proofs.«153853_j46084999086149_1_alg».proof.Proof.Gen.KernelIdeal.Frame
import proofs.«153853_j46084999086149_1_alg».proof.Proof.Gen.ReferenceIdeal
import proofs.«153853_j46084999086149_1_alg».proof.Proof.Gen.Pre_finite_inputs
import proofs.«153853_j46084999086149_1_alg».proof.Proof.Gen.ReferenceIdeal.Run
import proofs.«153853_j46084999086149_1_alg».proof.Proof.Gen.ReferenceIdeal.Read
import proofs.«153853_j46084999086149_1_alg».proof.Proof.BlockValue
import proofs.«153853_j46084999086149_1_alg».proof.Proof.Spec
import proofs.«153853_j46084999086149_1_alg».proof.Proof.Batch
import proofs.«153853_j46084999086149_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `MlpClamp.result` of the (agreeing) arguments. -/
theorem algebraic : Cert.algebraic_KernelIdeal_ReferenceIdeal := by
  intro m ρ m' ρ' _ hagree
  refine ⟨fun c => Cert.KernelIdeal.Batch.G m c, Cert.KernelIdeal.Batch.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, Cert.ReferenceIdeal.RefValue.result_eq]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
